-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel

variable [Facts]

def fn {F : FTy → Type} [FloatOps F] (main_arg0 : FVec F S128x512x512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  main_v3
-- ==== Kernel.lean ====
abbrev S128x512x512 : Shape := ⟨3, ![128, 512, 512]⟩
abbrev S128x768x768 : Shape := ⟨3, ![128, 768, 768]⟩
abbrev S4x512x512 : Shape := ⟨3, ![4, 512, 512]⟩
abbrev S4x768x768 : Shape := ⟨3, ![4, 768, 768]⟩

abbrev nBuf : Space → Nat
  | .hbm => 2
  | .vmem => 4
  | .smem => 0
  | _ => 0

abbrev bufTy : (tb : Table) → Fin (tcTables nBuf tb) → BufTy
  | .hbm, ⟨0, _⟩ => ⟨S128x512x512, .f32⟩
  | .hbm, ⟨1, _⟩ => ⟨S128x768x768, .f32⟩
  | .local _ .vmem, ⟨0, _⟩ => ⟨S4x512x512, .f32⟩
  | .local _ .vmem, ⟨1, _⟩ => ⟨S4x512x512, .f32⟩
  | .local _ .vmem, ⟨2, _⟩ => ⟨S4x768x768, .f32⟩
  | .local _ .vmem, ⟨3, _⟩ => ⟨S4x768x768, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x768x768_S4x768x768_0_0_0 : ∀ a, (![0, 0, 0] : Fin 3 → Nat) a + S4x768x768.size a ≤ S4x768x768.size a
  h_S4x768x768 : 0 < S4x768x768.numel
  inb_S4x512x512_S4x512x512_0_0_0 : ∀ a, (![0, 0, 0] : Fin 3 → Nat) a + S4x512x512.size a ≤ S4x512x512.size a
  h_S4x512x512 : 0 < S4x512x512.numel
  inb_S4x768x768_S4x512x512_0_256_256 : ∀ a, (![0, 256, 256] : Fin 3 → Nat) a + S4x512x512.size a ≤ S4x768x768.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x512.size a ≤ S128x512x512.size a
  hwx0_0 : ∀ i : grid0.Coords, EltTy.bits .f32 = 32 ∨ (Rect.block (s := S128x512x512) S4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x768x768.size a ≤ S128x768x768.size a
  hwx0_1 : ∀ i : grid0.Coords, EltTy.bits .f32 = 32 ∨ (Rect.block (s := S128x768x768) S4x768x768.size (cc0_transform_1 i) (hinb0_1 i)).WholeWords (EltTy.packing .f32)

variable [Facts₀]

abbrev win0_0 : Pipeline.Window sig grid0 :=
  Pipeline.Window.ofSpec (Memref.whole main_arg0) S4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x768x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S512 : Shape := ⟨1, ![512]⟩
abbrev S_ : Shape := ⟨0, ![]⟩
abbrev S128x768x768 : Shape := ⟨3, ![128, 768, 768]⟩
abbrev S512x1 : Shape := ⟨2, ![512, 1]⟩
abbrev S1x512 : Shape := ⟨2, ![1, 512]⟩
abbrev S512x512 : Shape := ⟨2, ![512, 512]⟩
abbrev S512x512x1 : Shape := ⟨3, ![512, 512, 1]⟩
abbrev S512x512x2 : Shape := ⟨3, ![512, 512, 2]⟩

abbrev nBuf : Space → Nat
  | .hbm => 142
  | .vmem => 0
  | .smem => 0
  | _ => 0

abbrev hbmTy0_0 (i : Nat) : BufTy := match i % 128 with
  | 0 => ⟨S128x512x512, .f32⟩
  | 1 => ⟨S512, .i32⟩
  | 2 => ⟨S_, .i32⟩
  | 3 => ⟨S_, .i32⟩
  | 4 => ⟨S512, .i32⟩
  | 5 => ⟨S512, .i32⟩
  | 6 => ⟨S512, .i32⟩
  | 7 => ⟨S_, .i32⟩
  | 8 => ⟨S512, .i32⟩
  | 9 => ⟨S512, .i1⟩
  | 10 => ⟨S512, .i32⟩
  | 11 => ⟨S512, .i32⟩
  | 12 => ⟨S_, .i32⟩
  | 13 => ⟨S512, .i32⟩
  | 14 => ⟨S512, .i1⟩
  | 15 => ⟨S512, .i1⟩
  | 16 => ⟨S_, .i32⟩
  | 17 => ⟨S512, .i32⟩
  | 18 => ⟨S512, .i32⟩
  | 19 => ⟨S512, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S512, .i32⟩
  | 27 => ⟨S512, .i32⟩
  | 28 => ⟨S_, .i32⟩
  | 29 => ⟨S512, .i32⟩
  | 30 => ⟨S512, .i1⟩
  | 31 => ⟨S_, .i32⟩
  | 32 => ⟨S512, .i32⟩
  | 33 => ⟨S512, .i1⟩
  | 34 => ⟨S_, .i32⟩
  | 35 => ⟨S_, .i1⟩
  | 36 => ⟨S512, .i1⟩
  | 37 => ⟨S512, .i1⟩
  | 38 => ⟨S512, .i1⟩
  | 39 => ⟨S512, .i32⟩
  | 40 => ⟨S512, .i32⟩
  | 41 => ⟨S512, .i32⟩
  | 42 => ⟨S_, .i32⟩
  | 43 => ⟨S_, .i32⟩
  | 44 => ⟨S512, .i32⟩
  | 45 => ⟨S512, .i32⟩
  | 46 => ⟨S512, .i32⟩
  | 47 => ⟨S_, .i32⟩
  | 48 => ⟨S512, .i32⟩
  | 49 => ⟨S512, .i1⟩
  | 50 => ⟨S512, .i32⟩
  | 51 => ⟨S512, .i32⟩
  | 52 => ⟨S_, .i32⟩
  | 53 => ⟨S512, .i32⟩
  | 54 => ⟨S512, .i1⟩
  | 55 => ⟨S512, .i1⟩
  | 56 => ⟨S_, .i32⟩
  | 57 => ⟨S512, .i32⟩
  | 58 => ⟨S512, .i32⟩
  | 59 => ⟨S512, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S512, .i32⟩
  | 67 => ⟨S512, .i32⟩
  | 68 => ⟨S_, .i32⟩
  | 69 => ⟨S512, .i32⟩
  | 70 => ⟨S512, .i1⟩
  | 71 => ⟨S_, .i32⟩
  | 72 => ⟨S512, .i32⟩
  | 73 => ⟨S512, .i1⟩
  | 74 => ⟨S_, .i32⟩
  | 75 => ⟨S_, .i1⟩
  | 76 => ⟨S512, .i1⟩
  | 77 => ⟨S512, .i1⟩
  | 78 => ⟨S512, .i1⟩
  | 79 => ⟨S512, .i32⟩
  | 80 => ⟨S512, .i32⟩
  | 81 => ⟨S512, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S512, .i32⟩
  | 89 => ⟨S512, .i32⟩
  | 90 => ⟨S_, .i32⟩
  | 91 => ⟨S512, .i32⟩
  | 92 => ⟨S512, .i1⟩
  | 93 => ⟨S_, .i32⟩
  | 94 => ⟨S512, .i32⟩
  | 95 => ⟨S512, .i1⟩
  | 96 => ⟨S_, .i32⟩
  | 97 => ⟨S_, .i1⟩
  | 98 => ⟨S512, .i1⟩
  | 99 => ⟨S512, .i1⟩
  | 100 => ⟨S512, .i1⟩
  | 101 => ⟨S512, .i32⟩
  | 102 => ⟨S512, .i32⟩
  | 103 => ⟨S512, .i32⟩
  | 104 => ⟨S_, .i32⟩
  | 105 => ⟨S512, .i32⟩
  | 106 => ⟨S512, .i32⟩
  | 107 => ⟨S_, .i32⟩
  | 108 => ⟨S512, .i32⟩
  | 109 => ⟨S512, .i32⟩
  | 110 => ⟨S512, .i32⟩
  | 111 => ⟨S_, .i32⟩
  | 112 => ⟨S512, .i32⟩
  | 113 => ⟨S512, .i32⟩
  | 114 => ⟨S_, .i32⟩
  | 115 => ⟨S512, .i32⟩
  | 116 => ⟨S512, .i32⟩
  | 117 => ⟨S512, .i32⟩
  | 118 => ⟨S_, .f32⟩
  | 119 => ⟨S128x768x768, .f32⟩
  | 120 => ⟨S512x1, .i32⟩
  | 121 => ⟨S1x512, .i32⟩
  | 122 => ⟨S_, .i32⟩
  | 123 => ⟨S512x1, .i32⟩
  | 124 => ⟨S512x1, .i1⟩
  | 125 => ⟨S_, .i32⟩
  | 126 => ⟨S512x1, .i32⟩
  | 127 => ⟨S512x1, .i32⟩
  | _ => ⟨S128x512x512, .f32⟩

abbrev hbmTy0_1 (i : Nat) : BufTy := match i % 128 with
  | 0 => ⟨S512x1, .i32⟩
  | 1 => ⟨S_, .i32⟩
  | 2 => ⟨S1x512, .i32⟩
  | 3 => ⟨S1x512, .i1⟩
  | 4 => ⟨S_, .i32⟩
  | 5 => ⟨S1x512, .i32⟩
  | 6 => ⟨S1x512, .i32⟩
  | 7 => ⟨S1x512, .i32⟩
  | 8 => ⟨S512x512, .i32⟩
  | 9 => ⟨S512x512, .i32⟩
  | 10 => ⟨S512x512x1, .i32⟩
  | 11 => ⟨S512x512x1, .i32⟩
  | 12 => ⟨S512x512x2, .i32⟩
  | 13 => ⟨S128x768x768, .f32⟩
  | _ => ⟨S128x512x512, .f32⟩

abbrev hbmTy (i : Nat) : BufTy := match i / 128 with
  | 0 => hbmTy0_0 i
  | 1 => hbmTy0_1 i
  | _ => ⟨S128x512x512, .f32⟩

abbrev bufTy : (tb : Table) → Fin (tcTables nBuf tb) → BufTy
  | .hbm, ⟨i, _⟩ => hbmTy i
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_v7 : Ref sig .tc := ⟨.hbm, 10, rfl⟩
abbrev main_call0_v8 : Ref sig .tc := ⟨.hbm, 11, rfl⟩
abbrev main_call0_c : Ref sig .tc := ⟨.hbm, 12, rfl⟩
abbrev main_call0_v9 : Ref sig .tc := ⟨.hbm, 13, rfl⟩
abbrev main_call0_v10 : Ref sig .tc := ⟨.hbm, 14, rfl⟩
abbrev main_call0_v11 : Ref sig .tc := ⟨.hbm, 15, rfl⟩
abbrev main_call0_c_0 : Ref sig .tc := ⟨.hbm, 16, rfl⟩
abbrev main_call0_v12 : Ref sig .tc := ⟨.hbm, 17, rfl⟩
abbrev main_call0_v13 : Ref sig .tc := ⟨.hbm, 18, rfl⟩
abbrev main_v1 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v2 : Ref sig .tc := ⟨.hbm, 41, rfl⟩
abbrev main_c_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v3 : Ref sig .tc := ⟨.hbm, 59, rfl⟩
abbrev main_c_2 : Ref sig .tc := ⟨.hbm, 60, rfl⟩
abbrev main_call3_v0 : Ref sig .tc := ⟨.hbm, 61, rfl⟩
abbrev main_call3_c : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_c_1 : Ref sig .tc := ⟨.hbm, 68, rfl⟩
abbrev main_call3_v5 : Ref sig .tc := ⟨.hbm, 69, rfl⟩
abbrev main_call3_v6 : Ref sig .tc := ⟨.hbm, 70, rfl⟩
abbrev main_call3_c_2 : Ref sig .tc := ⟨.hbm, 71, rfl⟩
abbrev main_call3_v7 : Ref sig .tc := ⟨.hbm, 72, rfl⟩
abbrev main_call3_v8 : Ref sig .tc := ⟨.hbm, 73, rfl⟩
abbrev main_call3_c_3 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_v4 : Ref sig .tc := ⟨.hbm, 81, rfl⟩
abbrev main_c_3 : Ref sig .tc := ⟨.hbm, 82, rfl⟩
abbrev main_call4_v0 : Ref sig .tc := ⟨.hbm, 83, rfl⟩
abbrev main_call4_c : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_c_1 : Ref sig .tc := ⟨.hbm, 90, rfl⟩
abbrev main_call4_v5 : Ref sig .tc := ⟨.hbm, 91, rfl⟩
abbrev main_call4_v6 : Ref sig .tc := ⟨.hbm, 92, rfl⟩
abbrev main_call4_c_2 : Ref sig .tc := ⟨.hbm, 93, rfl⟩
abbrev main_call4_v7 : Ref sig .tc := ⟨.hbm, 94, rfl⟩
abbrev main_call4_v8 : Ref sig .tc := ⟨.hbm, 95, rfl⟩
abbrev main_call4_c_3 : Ref sig .tc := ⟨.hbm, 96, rfl⟩
abbrev main_call4_v9 : Ref sig .tc := ⟨.hbm, 97, rfl⟩
abbrev main_call4_v10 : Ref sig .tc := ⟨.hbm, 98, rfl⟩
abbrev main_call4_v11 : Ref sig .tc := ⟨.hbm, 99, rfl⟩
abbrev main_call4_v12 : Ref sig .tc := ⟨.hbm, 100, rfl⟩
abbrev main_call4_v13 : Ref sig .tc := ⟨.hbm, 101, rfl⟩
abbrev main_call4_v14 : Ref sig .tc := ⟨.hbm, 102, rfl⟩
abbrev main_v5 : Ref sig .tc := ⟨.hbm, 103, rfl⟩
abbrev main_c_4 : Ref sig .tc := ⟨.hbm, 104, rfl⟩
abbrev main_v6 : Ref sig .tc := ⟨.hbm, 105, rfl⟩
abbrev main_v7 : Ref sig .tc := ⟨.hbm, 106, rfl⟩
abbrev main_c_5 : Ref sig .tc := ⟨.hbm, 107, rfl⟩
abbrev main_v8 : Ref sig .tc := ⟨.hbm, 108, rfl⟩
abbrev main_v9 : Ref sig .tc := ⟨.hbm, 109, rfl⟩
abbrev main_v10 : Ref sig .tc := ⟨.hbm, 110, rfl⟩
abbrev main_c_6 : Ref sig .tc := ⟨.hbm, 111, rfl⟩
abbrev main_v11 : Ref sig .tc := ⟨.hbm, 112, rfl⟩
abbrev main_v12 : Ref sig .tc := ⟨.hbm, 113, rfl⟩
abbrev main_c_7 : Ref sig .tc := ⟨.hbm, 114, rfl⟩
abbrev main_v13 : Ref sig .tc := ⟨.hbm, 115, rfl⟩
abbrev main_v14 : Ref sig .tc := ⟨.hbm, 116, rfl⟩
abbrev main_v15 : Ref sig .tc := ⟨.hbm, 117, rfl⟩
abbrev main_cst : Ref sig .tc := ⟨.hbm, 118, rfl⟩
abbrev main_v16 : Ref sig .tc := ⟨.hbm, 119, rfl⟩
abbrev main_v17 : Ref sig .tc := ⟨.hbm, 120, rfl⟩
abbrev main_v18 : Ref sig .tc := ⟨.hbm, 121, rfl⟩
abbrev main_c_8 : Ref sig .tc := ⟨.hbm, 122, rfl⟩
abbrev main_v19 : Ref sig .tc := ⟨.hbm, 123, rfl⟩
abbrev main_v20 : Ref sig .tc := ⟨.hbm, 124, rfl⟩
abbrev main_c_9 : Ref sig .tc := ⟨.hbm, 125, rfl⟩
abbrev main_v21 : Ref sig .tc := ⟨.hbm, 126, rfl⟩
abbrev main_v22 : Ref sig .tc := ⟨.hbm, 127, rfl⟩
abbrev main_v23 : Ref sig .tc := ⟨.hbm, 128, rfl⟩
abbrev main_c_10 : Ref sig .tc := ⟨.hbm, 129, rfl⟩
abbrev main_v24 : Ref sig .tc := ⟨.hbm, 130, rfl⟩
abbrev main_v25 : Ref sig .tc := ⟨.hbm, 131, rfl⟩
abbrev main_c_11 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_v29 : Ref sig .tc := ⟨.hbm, 136, rfl⟩
abbrev main_v30 : Ref sig .tc := ⟨.hbm, 137, rfl⟩
abbrev main_v31 : Ref sig .tc := ⟨.hbm, 138, rfl⟩
abbrev main_v32 : Ref sig .tc := ⟨.hbm, 139, rfl⟩
abbrev main_v33 : Ref sig .tc := ⟨.hbm, 140, rfl⟩
abbrev main_v34 : Ref sig .tc := ⟨.hbm, 141, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S_S128x768x768 : S_.BroadcastsInDim S128x768x768 (![] : Fin 0 → Fin S128x768x768.rank)
  bcast_S512_S512x1_0 : S512.BroadcastsInDim S512x1 (![0] : Fin 1 → Fin S512x1.rank)
  bcast_S512_S1x512_1 : S512.BroadcastsInDim S1x512 (![1] : Fin 1 → Fin S1x512.rank)
  bcast_S_S512x1 : S_.BroadcastsInDim S512x1 (![] : Fin 0 → Fin S512x1.rank)
  bcast_S_S1x512 : S_.BroadcastsInDim S1x512 (![] : Fin 0 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  scatter_S128x768x768_S512x512x2_S128x512x512_0_12_12_2_wf : ScatterDims.WF S128x768x768 S512x512x2 S128x512x512 [0] [1, 2] [1, 2] 2

variable [Facts₀]

def scatter_S128x768x768_S512x512x2_S128x512x512_0_12_12_2 : ScatterDims S128x768x768 S512x512x2 S128x512x512 where
  updateWindowDims := [0]
  insertedWindowDims := [1, 2]
  scatterDimsToOperandDims := [1, 2]
  indexVectorDim := 2
  wf := scatter_S128x768x768_S512x512x2_S128x512x512_0_12_12_2_wf

class Facts : Prop extends Facts₀ where

variable [Facts]
-- ==== Proof.Spec.lean ====
/-
  The mathematics both programs share. An array `x` of shape [128, 512, 512] is placed inside an array of shape
  [128, 768, 768]: entry (b, p, q) of the result is `x (b, p - 256, q - 256)` when both `p` and `q` are at least 256, and a
  fixed filler `z` otherwise (`insertAt`). The map (b, r, s) ↦ (b, r + 256, s + 256) (`landing`) is injective, so the updates
  that land on a given result entry are exactly one (inside the lower-right 512 × 512 corner) or none (outside it):
  a sum of `x` over them is `insertAt 0 x` (`sum_landing`).
-/
import Idealize.ShloMosaic.PureOps.Ideal
import Idealize.ShloMosaic.Lib.ValueIdx

noncomputable section

open scoped BigOperators

namespace Cert.Insert

open Idealize.ShloMosaic Idealize.ShloMosaic.ValueIdx

/-- The small array's shape. -/
abbrev SIn : Shape := ⟨3, ![128, 512, 512]⟩
/-- The large array's shape. -/
abbrev SOut : Shape := ⟨3, ![128, 768, 768]⟩

theorem in_lt0 (j : SIn.Idx) : (j 0).val < 128 := (j 0).isLt
theorem in_lt1 (j : SIn.Idx) : (j 1).val < 512 := (j 1).isLt
theorem in_lt2 (j : SIn.Idx) : (j 2).val < 512 := (j 2).isLt
theorem out_lt0 (i : SOut.Idx) : (i 0).val < 128 := (i 0).isLt
theorem out_lt1 (i : SOut.Idx) : (i 1).val < 768 := (i 1).isLt
theorem out_lt2 (i : SOut.Idx) : (i 2).val < 768 := (i 2).isLt

/-- Where entry (b, r, s) of the small array lands in the large one: (b, r + 256, s + 256). -/
def landing (j : SIn.Idx) : SOut.Idx :=
  ix3 (n0 := 128) (n1 := 768) (n2 := 768) ⟨(j 0).val, in_lt0 j⟩ ⟨(j 1).val + 256, by have := in_lt1 j; omega⟩
    ⟨(j 2).val + 256, by have := in_lt2 j; omega⟩

/-- The entry of the small array that lands on (b, p, q), for p, q ≥ 256: (b, p - 256, q - 256). -/
def source (i : SOut.Idx) (h : 256 ≤ (i 1).val ∧ 256 ≤ (i 2).val) : SIn.Idx :=
  ix3 (n0 := 128) (n1 := 512) (n2 := 512) ⟨(i 0).val, out_lt0 i⟩ ⟨(i 1).val - 256, by have := out_lt1 i; omega⟩
    ⟨(i 2).val - 256, by have := out_lt2 i; omega⟩

/-- The small array placed at offset (0, 256, 256) of the large one, `z` around it. -/
def insertAt {α : Type} (z : α) (x : SIn.Idx → α) : SOut.Idx → α := fun i =>
  if h : 256 ≤ (i 1).val ∧ 256 ≤ (i 2).val then x (source i h) else z

theorem landing_val0 (j : SIn.Idx) : (landing j 0).val = (j 0).val := rfl
theorem landing_val1 (j : SIn.Idx) : (landing j 1).val = (j 1).val + 256 := rfl
theorem landing_val2 (j : SIn.Idx) : (landing j 2).val = (j 2).val + 256 := rfl
theorem source_val0 (i : SOut.Idx) (h) : (source i h 0).val = (i 0).val := rfl
theorem source_val1 (i : SOut.Idx) (h) : (source i h 1).val = (i 1).val - 256 := rfl
theorem source_val2 (i : SOut.Idx) (h) : (source i h 2).val = (i 2).val - 256 := rfl

/-- Two indices of the large array with equal coordinates are equal. -/
theorem out_ext {i i' : SOut.Idx} (h0 : (i 0).val = (i' 0).val) (h1 : (i 1).val = (i' 1).val) (h2 : (i 2).val = (i' 2).val) :
    i = i' := by
  funext a; apply Fin.ext
  match a with | ⟨0, _⟩ => exact h0 | ⟨1, _⟩ => exact h1 | ⟨2, _⟩ => exact h2

/-- Two indices of the small array with equal coordinates are equal. -/
theorem in_ext {j j' : SIn.Idx} (h0 : (j 0).val = (j' 0).val) (h1 : (j 1).val = (j' 1).val) (h2 : (j 2).val = (j' 2).val) :
    j = j' := by
  funext a; apply Fin.ext
  match a with | ⟨0, _⟩ => exact h0 | ⟨1, _⟩ => exact h1 | ⟨2, _⟩ => exact h2

/-- An entry lands on (b, p, q) exactly when p, q ≥ 256 and it is (b, p - 256, q - 256). -/
theorem landing_eq_iff (j : SIn.Idx) (i : SOut.Idx) :
    landing j = i ↔ ∃ h : 256 ≤ (i 1).val ∧ 256 ≤ (i 2).val, j = source i h := by
  constructor
  · rintro rfl
    refine ⟨⟨by rw [landing_val1]; omega, by rw [landing_val2]; omega⟩, ?_⟩
    refine in_ext ?_ ?_ ?_
    · rw [source_val0, landing_val0]
    · rw [source_val1, landing_val1]; omega
    · rw [source_val2, landing_val2]; omega
  · rintro ⟨h, rfl⟩
    refine out_ext ?_ ?_ ?_
    · rw [landing_val0, source_val0]
    · rw [landing_val1, source_val1]; omega
    · rw [landing_val2, source_val2]; omega

/-- The sum of `x` over the entries that land on `i` — stated for any decidable spelling `p` of "lands on `i`" — is
    `x` at the one entry that does, or zero when none does. -/
theorem sum_landing {M : Type} [AddCommMonoid M] (x : SIn.Idx → M) (i : SOut.Idx) (p : SIn.Idx → Prop) [DecidablePred p]
    (hp : ∀ j, p j ↔ landing j = i) :
    ∑ j ∈ Finset.univ.filter p, x j = insertAt 0 x i := by
  unfold insertAt
  by_cases h : 256 ≤ (i 1).val ∧ 256 ≤ (i 2).val
  · rw [dif_pos h]
    have hs : Finset.univ.filter p = {source i h} := by
      ext j
      rw [Finset.mem_filter, Finset.mem_singleton, hp j, landing_eq_iff]
      constructor
      · rintro ⟨-, _, rfl⟩; rfl
      · rintro rfl; exact ⟨Finset.mem_univ _, h, rfl⟩
    rw [hs, Finset.sum_singleton]
  · rw [dif_neg h]
    refine Finset.sum_eq_zero fun j hj => ?_
    rw [Finset.mem_filter, hp j, landing_eq_iff] at hj
    exact absurd hj.2.1 h

end Cert.Insert

end
-- ==== Proof.KernelValue.lean ====
/-
  What the idealized kernel leaves in its result array: the argument array placed at offset (0, 256, 256) of a
  zero array (`Cert.Insert.insertAt 0`).
-/
import proofs.«125739_j24111946399874_1_alg».proof.Proof.Gen.KernelIdeal.Value
import proofs.«125739_j24111946399874_1_alg».proof.Proof.Spec
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The three zero offsets, as the constant function. -/
theorem zero_offsets : (![0, 0, 0] : Fin 3 → Nat) = fun _ => 0 := funext fun a => by fin_cases a <;> rfl

/-- Inside one [4, 768, 768] block, the position (b, p − 256, q − 256) of the [4, 512, 512] block whose entry is placed at
    (b, p, q), for p, q ≥ 256. -/
def blockSource (y : S4x768x768.Idx) (h : 256 ≤ (y 1).val ∧ 256 ≤ (y 2).val) : S4x512x512.Idx :=
  ix3 (n0 := 4) (n1 := 512) (n2 := 512) ⟨(y 0).val, (y 0).isLt⟩
    ⟨(y 1).val - 256, by have h1 : (y 1).val < 768 := (y 1).isLt; omega⟩
    ⟨(y 2).val - 256, by have h2 : (y 2).val < 768 := (y 2).isLt; omega⟩

theorem blockSource_val0 (y : S4x768x768.Idx) (h) : (blockSource y h 0).val = (y 0).val := rfl
theorem blockSource_val1 (y : S4x768x768.Idx) (h) : (blockSource y h 1).val = (y 1).val - 256 := rfl
theorem blockSource_val2 (y : S4x768x768.Idx) (h) : (blockSource y h 2).val = (y 2).val - 256 := rfl

/-- ONE BLOCK. The body fills its [4, 768, 768] block with zeros and then places its [4, 512, 512] input block at offset
    (0, 256, 256): entry (b, p, q) of the block ends as the input block at (b, p − 256, q − 256) when p, q ≥ 256, and as
    zero otherwise. -/
theorem block_eq (c : Dev nD) (i : grid0.Coords) (arg1 : Memref sig .tc .vmem S4x512x512 .f32) (harg1 : arg1.IsWhole)
    (arg2 : Memref sig .tc .vmem S4x768x768 .f32) (harg2 : arg2.IsWhole) (x0 : Vec Ideal S4x512x512 .f32) :
    out0_A_1 (F := Ideal) c i arg1 harg1 arg2 harg2 x0
      = fun y => if h : 256 ≤ (y 1).val ∧ 256 ≤ (y 2).val then x0 (blockSource y h) else (0 : EReal) := by
  unfold out0_A_1
  rw [View.read_writes_eq_canon _ _ _ (cover0_A_1 c i arg1 harg1 arg2 harg2 x0)]
  unfold kernelRun0_A
  dsimp only
  sl_unfold_words
  simp only [View.readAt_eq_ld, harg1.read_unread, View.ld_unit_zero (S := S4x512x512) zero_offsets]
  funext y
  have h0 : (y 0).val < 4 := (y 0).isLt
  have h1 : (y 1).val < 768 := (y 1).isLt
  have h2 : (y 2).val < 768 := (y 2).isLt
  by_cases h : 256 ≤ (y 1).val ∧ 256 ≤ (y 2).val
  · rw [dif_pos h]
    -- the index is the image of its position inside the placed block
    have hy : (Rect.unit (s := S4x768x768) ![0, 256, 256] S4x512x512.size inb_S4x768x768_S4x512x512_0_256_256).emb
        (blockSource y h) = y := by
      funext a; apply Fin.ext
      match a with
      | ⟨0, _⟩ => show 0 + 1 * (y 0).val = (y 0).val; omega
      | ⟨1, _⟩ => show 256 + 1 * ((y 1).val - 256) = (y 1).val; omega
      | ⟨2, _⟩ => show 256 + 1 * ((y 2).val - 256) = (y 2).val; omega
    have key := View.canon_cons_emb (Val := Elt Ideal)
      (Rect.unit (s := S4x768x768) ![0, 256, 256] S4x512x512.size inb_S4x768x768_S4x512x512_0_256_256) x0
      [⟨Rect.unit (s := S4x768x768) ![0, 0, 0] S4x768x768.size inb_S4x768x768_S4x768x768_0_0_0, k0_pay1 (F := Ideal)⟩]
      (blockSource y h)
    rw [hy] at key
    exact key
  · rw [dif_neg h]
    -- outside the placed block only the zero fill is seen
    have hout : y ∉ (Rect.unit (s := S4x768x768) ![0, 256, 256] S4x512x512.size
        inb_S4x768x768_S4x512x512_0_256_256).set := by
      rw [Rect.mem_set_unit]
      intro hall
      have a1 : 256 ≤ (y 1).val ∧ (y 1).val < 256 + 512 := hall 1
      have a2 : 256 ≤ (y 2).val ∧ (y 2).val < 256 + 512 := hall 2
      exact h ⟨a1.1, a2.1⟩
    rw [View.canon_cons_of_not_mem
        (⟨Rect.unit (s := S4x768x768) ![0, 256, 256] S4x512x512.size inb_S4x768x768_S4x512x512_0_256_256, x0⟩ :
          View.Piece (Elt Ideal) S4x768x768 .f32)
        [⟨Rect.unit (s := S4x768x768) ![0, 0, 0] S4x768x768.size inb_S4x768x768_S4x768x768_0_0_0, k0_pay1 (F := Ideal)⟩]
        hout,
      View.canon_unit_zero zero_offsets]
    show Ideal.ofBits .f32 0x00000000#32 = 0
    exact Ideal.ofBits_zero_f32

/-- The index maps, decided over the 32 grid points: the input block and the output block of a point have the same number
    (at most 31) along the batch axis, and both are the whole extent of the other two axes. -/
theorem index_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 31 :=
  (by decide +kernel : ∀ t : Fin grid0.N, _)

/-- WHAT POINT t WRITES BACK is block t of the inserted array: position (b, p, q) of the block is entry (4·k + b, p, q) of
    the array (k the block's number along the batch axis), and the input block's position (b, p − 256, q − 256) is entry
    (4·k + b, p − 256, q − 256) of the argument. -/
theorem flushed_eq (c : Dev nD) (t : Fin cfg0.N) :
    (dats m 0 c).flushed 1 t
      = ((cfg0.win 1).blk t).view.read (Elt Ideal) (Cert.Insert.insertAt (0 : EReal) (V m c main_arg0)) := by
  rw [Value.flushed1_A m c t,
    block_eq c (grid0.coords t) (ms0_0 t) (hs0_0 t) (ms0_1 t) (hs0_1 t) (iblk m c 0 t)]
  obtain ⟨e0, e1, e2, e3, e4, e5⟩ := index_facts t
  funext y
  have hy0 : (y 0).val < 4 := (y 0).isLt
  have hy1 : (y 1).val < 768 := (y 1).isLt
  have hy2 : (y 2).val < 768 := (y 2).isLt
  have hY0 : ((((cfg0.win 1).blk t).view.emb y) 0).val = win0_1.index t (0 : Fin 3) * 4 + 1 * (y 0).val := rfl
  have hY1 : ((((cfg0.win 1).blk t).view.emb y) 1).val = win0_1.index t (1 : Fin 3) * 768 + 1 * (y 1).val := rfl
  have hY2 : ((((cfg0.win 1).blk t).view.emb y) 2).val = win0_1.index t (2 : Fin 3) * 768 + 1 * (y 2).val := rfl
  show (if h : 256 ≤ (y 1).val ∧ 256 ≤ (y 2).val then
        iblk m c 0 t (blockSource ((cfg0.win 1).xinj (grid0.coords t) y) h) else (0 : EReal))
      = Cert.Insert.insertAt (0 : EReal) (V m c main_arg0) (((cfg0.win 1).blk t).view.emb y)
  unfold Cert.Insert.insertAt
  by_cases h : 256 ≤ (y 1).val ∧ 256 ≤ (y 2).val
  · have h' : 256 ≤ ((((cfg0.win 1).blk t).view.emb y) 1).val ∧ 256 ≤ ((((cfg0.win 1).blk t).view.emb y) 2).val := by
      rw [hY1, hY2, e3, e4]; omega
    rw [dif_pos h, dif_pos h']
    -- both sides read the argument at one entry: (4·k + b, p − 256, q − 256)
    have hsrc : ((cfg0.win 0).blk t).view.emb (blockSource ((cfg0.win 1).xinj (grid0.coords t) y) h)
        = Cert.Insert.source (((cfg0.win 1).blk t).view.emb y) h' := by
      refine Cert.Insert.in_ext ?_ ?_ ?_
      · rw [Cert.Insert.source_val0, hY0]
        show win0_0.index t (0 : Fin 3) * 4 + 1 * (y 0).val = _
        omega
      · rw [Cert.Insert.source_val1, hY1]
        show win0_0.index t (1 : Fin 3) * 512 + 1 * ((y 1).val - 256) = _
        omega
      · rw [Cert.Insert.source_val2, hY2]
        show win0_0.index t (2 : Fin 3) * 512 + 1 * ((y 2).val - 256) = _
        omega
    exact congrArg (V m c main_arg0) hsrc
  · have h' : ¬ (256 ≤ ((((cfg0.win 1).blk t).view.emb y) 1).val ∧ 256 ≤ ((((cfg0.win 1).blk t).view.emb y) 2).val) := by
      rw [hY1, hY2, e3, e4]; omega
    rw [dif_neg h, dif_neg h']

/-- An entry of the array is in point t's block exactly when each coordinate is in the block's range on its axis. -/
theorem mem_blk (t : Fin cfg0.N) (i : S128x768x768.Idx) :
    i ∈ ((cfg0.win 1).blk t).view.set ↔ ∀ a : Fin 3, win0_1.index t a * S4x768x768.size a ≤ (i a).val
      ∧ (i a).val < win0_1.index t a * S4x768x768.size a + S4x768x768.size a := by
  show i ∈ ((View.whole main_v0).slice (win0_1.rect t)).set ↔ _
  rw [View.set_slice_whole, Rect.mem_set_unit]
  exact Iff.rfl

/-- Each of the 32 blocks along the batch axis is some grid point's. -/
theorem index_onto : ∀ q : Fin 32, ∃ t : Fin cfg0.N, win0_1.index t = ![q.val, 0, 0] :=
  (by decide +kernel : ∀ q : Fin 32, ∃ t : Fin grid0.N, win0_1.index t = ![q.val, 0, 0])

/-- THE COVER: entry (n, p, q) of the [128, 768, 768] array is in the block of the point whose block number is n / 4, and
    every point writes back. -/
theorem cover (i : S128x768x768.Idx) :
    ∃ t : Fin cfg0.N, (cfg0.win 1).flush t = true ∧ i ∈ ((cfg0.win 1).blk t).view.set := by
  have hi0 : (i 0).val < 128 := (i 0).isLt
  have hi1 : (i 1).val < 768 := (i 1).isLt
  have hi2 : (i 2).val < 768 := (i 2).isLt
  obtain ⟨t, ht⟩ := index_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 4 ≤ (i 0).val ∧ (i 0).val < win0_1.index t (0 : Fin 3) * 4 + 4
    omega
  | ⟨1, _⟩ =>
    show win0_1.index t (1 : Fin 3) * 768 ≤ (i 1).val ∧ (i 1).val < win0_1.index t (1 : Fin 3) * 768 + 768
    omega
  | ⟨2, _⟩ =>
    show win0_1.index t (2 : Fin 3) * 768 ≤ (i 2).val ∧ (i 2).val < win0_1.index t (2 : Fin 3) * 768 + 768
    omega

/-- THE ARRAY after the run: the argument array inserted at offset (0, 256, 256) of zeros. -/
theorem final (c : Dev nD) :
    (dats m 0 c).arrAt 1 cfg0.N = Cert.Insert.insertAt (0 : EReal) (m ((c : Thread nD τ).loc main_arg0)) :=
  (dats m 0 c).arrAt_eq_of_cover 1 (Cert.Insert.insertAt (0 : EReal) (V m c main_arg0))
    (fun t _ => flushed_eq m c t) cover

/-- The kernel's run at the ideal instance: the result array ends as the argument array inserted at offset
    (0, 256, 256) of zeros, and the argument array is unchanged. -/
theorem run : θ_run (defs (F := Ideal)) (onTc (τ := τ) (main (F := Ideal))) ⟨m, fun _ => 0, ρ⟩ fun r => ∀ c : Dev nD,
      r.2.mem ((c : Thread nD τ).loc main_v0)
        = Cert.Insert.insertAt (0 : EReal) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KValue

end
-- ==== Proof.RefOps.lean ====
import proofs.«125739_j24111946399874_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 141 operations, in order. -/
abbrev ops : List (HloOp τ sig (Elt F)) :=
  [ StableHlo.nullary main_v0 (iotaInDim S512 32 0),
    StableHlo.nullary main_c (constantI S_ 32 64#32),
    StableHlo.TRef.unary (.of main_c) main_call0.v0 id,
    StableHlo.TRef.unary main_call0.v0 main_call0.v1 (broadcastInDim S512 ![] bcast_S_S512),
    StableHlo.TRef.binary (.of main_v0) main_call0.v1 main_call0.v2 Host.divsi,
    StableHlo.TRef.unary (.of main_v0) main_call0.v3 signi,
    StableHlo.TRef.unary main_call0.v0 main_call0.v4 signi,
    StableHlo.TRef.unary main_call0.v4 main_call0.v5 (broadcastInDim S512 ![] bcast_S_S512),
    StableHlo.TRef.binary main_call0.v3 main_call0.v5 main_call0.v6 (cmpi .ne),
    StableHlo.TRef.unary main_call0.v0 main_call0.v7 (broadcastInDim S512 ![] bcast_S_S512),
    StableHlo.TRef.binary (.of main_v0) main_call0.v7 main_call0.v8 Host.remsi,
    StableHlo.TRef.nullary main_call0.c (constantI S_ 32 0#32),
    StableHlo.TRef.unary main_call0.c main_call0.v9 (broadcastInDim S512 ![] bcast_S_S512),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S512 ![] bcast_S_S512),
    StableHlo.TRef.binary main_call0.v2 main_call0.v12 main_call0.v13 subi,
    StableHlo.TRef.ternary main_call0.v11 main_call0.v13 main_call0.v2 main_call0.call0.v0 select,
    StableHlo.nullary main_c_0 (constantI S_ 32 64#32),
    StableHlo.TRef.unary (.of main_c_0) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S512 ![] bcast_S_S512),
    StableHlo.TRef.binary (.of main_v0) main_call1.v3 main_call1.v4 Host.remsi,
    StableHlo.TRef.nullary main_call1.c_1 (constantI S_ 32 0#32),
    StableHlo.TRef.unary main_call1.c_1 main_call1.v5 (broadcastInDim S512 ![] bcast_S_S512),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S512 ![] bcast_S_S512),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S512 ![] bcast_S_S512),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S512 ![] bcast_S_S512),
    StableHlo.TRef.binary main_call1.v4 main_call1.v13 main_call1.v14 addi,
    StableHlo.TRef.ternary main_call1.v12 main_call1.v14 main_call1.v4 main_call1.v15 select,
    StableHlo.nullary main_c_1 (constantI S_ 32 8#32),
    StableHlo.TRef.unary (.of main_c_1) main_call2.v0 id,
    StableHlo.TRef.unary main_call2.v0 main_call2.v1 (broadcastInDim S512 ![] bcast_S_S512),
    StableHlo.TRef.binary (.of main_v2) main_call2.v1 main_call2.v2 Host.divsi,
    StableHlo.TRef.unary (.of main_v2) main_call2.v3 signi,
    StableHlo.TRef.unary main_call2.v0 main_call2.v4 signi,
    StableHlo.TRef.unary main_call2.v4 main_call2.v5 (broadcastInDim S512 ![] bcast_S_S512),
    StableHlo.TRef.binary main_call2.v3 main_call2.v5 main_call2.v6 (cmpi .ne),
    StableHlo.TRef.unary main_call2.v0 main_call2.v7 (broadcastInDim S512 ![] bcast_S_S512),
    StableHlo.TRef.binary (.of main_v2) main_call2.v7 main_call2.v8 Host.remsi,
    StableHlo.TRef.nullary main_call2.c (constantI S_ 32 0#32),
    StableHlo.TRef.unary main_call2.c main_call2.v9 (broadcastInDim S512 ![] bcast_S_S512),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S512 ![] bcast_S_S512),
    StableHlo.TRef.binary main_call2.v2 main_call2.v12 main_call2.v13 subi,
    StableHlo.TRef.ternary main_call2.v11 main_call2.v13 main_call2.v2 main_call2.call0.v0 select,
    StableHlo.nullary main_c_2 (constantI S_ 32 64#32),
    StableHlo.TRef.unary (.of main_c_2) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S512 ![] bcast_S_S512),
    StableHlo.TRef.binary (.of main_v0) main_call3.v3 main_call3.v4 Host.remsi,
    StableHlo.TRef.nullary main_call3.c_1 (constantI S_ 32 0#32),
    StableHlo.TRef.unary main_call3.c_1 main_call3.v5 (broadcastInDim S512 ![] bcast_S_S512),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S512 ![] bcast_S_S512),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S512 ![] bcast_S_S512),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S512 ![] bcast_S_S512),
    StableHlo.TRef.binary main_call3.v4 main_call3.v13 main_call3.v14 addi,
    StableHlo.TRef.ternary main_call3.v12 main_call3.v14 main_call3.v4 main_call3.v15 select,
    StableHlo.nullary main_c_3 (constantI S_ 32 8#32),
    StableHlo.TRef.unary (.of main_c_3) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S512 ![] bcast_S_S512),
    StableHlo.TRef.binary (.of main_v4) main_call4.v3 main_call4.v4 Host.remsi,
    StableHlo.TRef.nullary main_call4.c_1 (constantI S_ 32 0#32),
    StableHlo.TRef.unary main_call4.c_1 main_call4.v5 (broadcastInDim S512 ![] bcast_S_S512),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S512 ![] bcast_S_S512),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S512 ![] bcast_S_S512),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S512 ![] bcast_S_S512),
    StableHlo.TRef.binary main_call4.v4 main_call4.v13 main_call4.v14 addi,
    StableHlo.TRef.ternary main_call4.v12 main_call4.v14 main_call4.v4 main_call4.v15 select,
    StableHlo.nullary main_c_4 (constantI S_ 32 4#32),
    StableHlo.unary main_c_4 main_v6 (broadcastInDim S512 ![] bcast_S_S512 : (⟨S_, .i32⟩ : BufTy).Contents (Elt F) → (⟨S512, .i32⟩ : BufTy).Contents (Elt F)),
    StableHlo.binary main_v1 main_v6 main_v7 (addi : (⟨S512, .i32⟩ : BufTy).Contents (Elt F) → (⟨S512, .i32⟩ : BufTy).Contents (Elt F) → (⟨S512, .i32⟩ : BufTy).Contents (Elt F)),
    StableHlo.nullary main_c_5 (constantI S_ 32 8#32),
    StableHlo.unary main_c_5 main_v8 (broadcastInDim S512 ![] bcast_S_S512 : (⟨S_, .i32⟩ : BufTy).Contents (Elt F) → (⟨S512, .i32⟩ : BufTy).Contents (Elt F)),
    StableHlo.binary main_v3 main_v8 main_v9 (muli : (⟨S512, .i32⟩ : BufTy).Contents (Elt F) → (⟨S512, .i32⟩ : BufTy).Contents (Elt F) → (⟨S512, .i32⟩ : BufTy).Contents (Elt F)),
    StableHlo.binary main_v9 main_v5 main_v10 (addi : (⟨S512, .i32⟩ : BufTy).Contents (Elt F) → (⟨S512, .i32⟩ : BufTy).Contents (Elt F) → (⟨S512, .i32⟩ : BufTy).Contents (Elt F)),
    StableHlo.nullary main_c_6 (constantI S_ 32 8#32),
    StableHlo.unary main_c_6 main_v11 (broadcastInDim S512 ![] bcast_S_S512 : (⟨S_, .i32⟩ : BufTy).Contents (Elt F) → (⟨S512, .i32⟩ : BufTy).Contents (Elt F)),
    StableHlo.binary main_v7 main_v11 main_v12 (muli : (⟨S512, .i32⟩ : BufTy).Contents (Elt F) → (⟨S512, .i32⟩ : BufTy).Contents (Elt F) → (⟨S512, .i32⟩ : BufTy).Contents (Elt F)),
    StableHlo.nullary main_c_7 (constantI S_ 32 8#32),
    StableHlo.unary main_c_7 main_v13 (broadcastInDim S512 ![] bcast_S_S512 : (⟨S_, .i32⟩ : BufTy).Contents (Elt F) → (⟨S512, .i32⟩ : BufTy).Contents (Elt F)),
    StableHlo.binary main_v12 main_v13 main_v14 (muli : (⟨S512, .i32⟩ : BufTy).Contents (Elt F) → (⟨S512, .i32⟩ : BufTy).Contents (Elt F) → (⟨S512, .i32⟩ : BufTy).Contents (Elt F)),
    StableHlo.binary main_v10 main_v14 main_v15 (addi : (⟨S512, .i32⟩ : BufTy).Contents (Elt F) → (⟨S512, .i32⟩ : BufTy).Contents (Elt F) → (⟨S512, .i32⟩ : BufTy).Contents (Elt F)),
    StableHlo.nullary main_cst (constant S_ .f32 0x00000000#32),
    StableHlo.unary main_cst main_v16 (broadcastInDim S128x768x768 ![] bcast_S_S128x768x768 : (⟨S_, .f32⟩ : BufTy).Contents (Elt F) → (⟨S128x768x768, .f32⟩ : BufTy).Contents (Elt F)),
    StableHlo.unary main_v15 main_v17 (broadcastInDim S512x1 ![0] bcast_S512_S512x1_0 : (⟨S512, .i32⟩ : BufTy).Contents (Elt F) → (⟨S512x1, .i32⟩ : BufTy).Contents (Elt F)),
    StableHlo.unary main_v15 main_v18 (broadcastInDim S1x512 ![1] bcast_S512_S1x512_1 : (⟨S512, .i32⟩ : BufTy).Contents (Elt F) → (⟨S1x512, .i32⟩ : BufTy).Contents (Elt F)),
    StableHlo.nullary main_c_8 (constantI S_ 32 0#32),
    StableHlo.unary main_c_8 main_v19 (broadcastInDim S512x1 ![] bcast_S_S512x1 : (⟨S_, .i32⟩ : BufTy).Contents (Elt F) → (⟨S512x1, .i32⟩ : BufTy).Contents (Elt F)),
    StableHlo.binary main_v17 main_v19 main_v20 (cmpi .slt : (⟨S512x1, .i32⟩ : BufTy).Contents (Elt F) → (⟨S512x1, .i32⟩ : BufTy).Contents (Elt F) → (⟨S512x1, .i1⟩ : BufTy).Contents (Elt F)),
    StableHlo.nullary main_c_9 (constantI S_ 32 768#32),
    StableHlo.unary main_c_9 main_v21 (broadcastInDim S512x1 ![] bcast_S_S512x1 : (⟨S_, .i32⟩ : BufTy).Contents (Elt F) → (⟨S512x1, .i32⟩ : BufTy).Contents (Elt F)),
    StableHlo.binary main_v17 main_v21 main_v22 (addi : (⟨S512x1, .i32⟩ : BufTy).Contents (Elt F) → (⟨S512x1, .i32⟩ : BufTy).Contents (Elt F) → (⟨S512x1, .i32⟩ : BufTy).Contents (Elt F)),
    StableHlo.ternary main_v20 main_v22 main_v17 main_v23 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    StableHlo.nullary main_c_10 (constantI S_ 32 0#32),
    StableHlo.unary main_c_10 main_v24 (broadcastInDim S1x512 ![] bcast_S_S1x512 : (⟨S_, .i32⟩ : BufTy).Contents (Elt F) → (⟨S1x512, .i32⟩ : BufTy).Contents (Elt F)),
    StableHlo.binary main_v18 main_v24 main_v25 (cmpi .slt : (⟨S1x512, .i32⟩ : BufTy).Contents (Elt F) → (⟨S1x512, .i32⟩ : BufTy).Contents (Elt F) → (⟨S1x512, .i1⟩ : BufTy).Contents (Elt F)),
    StableHlo.nullary main_c_11 (constantI S_ 32 768#32),
    StableHlo.unary main_c_11 main_v26 (broadcastInDim S1x512 ![] bcast_S_S1x512 : (⟨S_, .i32⟩ : BufTy).Contents (Elt F) → (⟨S1x512, .i32⟩ : BufTy).Contents (Elt F)),
    StableHlo.binary main_v18 main_v26 main_v27 (addi : (⟨S1x512, .i32⟩ : BufTy).Contents (Elt F) → (⟨S1x512, .i32⟩ : BufTy).Contents (Elt F) → (⟨S1x512, .i32⟩ : BufTy).Contents (Elt F)),
    StableHlo.ternary main_v25 main_v27 main_v18 main_v28 (select : (⟨S1x512, .i1⟩ : BufTy).Contents (Elt F) → (⟨S1x512, .i32⟩ : BufTy).Contents (Elt F) → (⟨S1x512, .i32⟩ : BufTy).Contents (Elt F) → (⟨S1x512, .i32⟩ : BufTy).Contents (Elt F)),
    StableHlo.unary main_v23 main_v29 (broadcastInDim S512x512 ![0, 1] bcast_S512x1_S512x512_0_1 : (⟨S512x1, .i32⟩ : BufTy).Contents (Elt F) → (⟨S512x512, .i32⟩ : BufTy).Contents (Elt F)),
    StableHlo.unary main_v28 main_v30 (broadcastInDim S512x512 ![0, 1] bcast_S1x512_S512x512_0_1 : (⟨S1x512, .i32⟩ : BufTy).Contents (Elt F) → (⟨S512x512, .i32⟩ : BufTy).Contents (Elt F)),
    StableHlo.unary main_v29 main_v31 (broadcastInDim S512x512x1 ![0, 1] bcast_S512x512_S512x512x1_0_1 : (⟨S512x512, .i32⟩ : BufTy).Contents (Elt F) → (⟨S512x512x1, .i32⟩ : BufTy).Contents (Elt F)),
    StableHlo.unary main_v30 main_v32 (broadcastInDim S512x512x1 ![0, 1] bcast_S512x512_S512x512x1_0_1 : (⟨S512x512, .i32⟩ : BufTy).Contents (Elt F) → (⟨S512x512x1, .i32⟩ : BufTy).Contents (Elt F)),
    StableHlo.binary main_v31 main_v32 main_v33 ((fun a b => concatenate S512x512x2 2 [⟨S512x512x1, a⟩, ⟨S512x512x1, b⟩] concatenates_S512x512x1_S512x512x1_S512x512x2_d2) : (⟨S512x512x1, .i32⟩ : BufTy).Contents (Elt F) → (⟨S512x512x1, .i32⟩ : BufTy).Contents (Elt F) → (⟨S512x512x2, .i32⟩ : BufTy).Contents (Elt F)),
    StableHlo.ternary main_v16 main_v33 main_arg0 main_v34 ((fun x i u => Host.scatterAdd scatter_S128x768x768_S512x512x2_S128x512x512_0_12_12_2 x i u) : (⟨S128x768x768, .f32⟩ : BufTy).Contents (Elt F) → (⟨S512x512x2, .i32⟩ : BufTy).Contents (Elt F) → (⟨S128x512x512, .f32⟩ : BufTy).Contents (Elt F) → (⟨S128x768x768, .f32⟩ : BufTy).Contents (Elt F)) ]

/-- The first 117: the index computation, ending with the operation that writes main_v15. -/
abbrev opsHead : List (HloOp τ sig (Elt F)) :=
  [ StableHlo.nullary main_v0 (iotaInDim S512 32 0),
    StableHlo.nullary main_c (constantI S_ 32 64#32),
    StableHlo.TRef.unary (.of main_c) main_call0.v0 id,
    StableHlo.TRef.unary main_call0.v0 main_call0.v1 (broadcastInDim S512 ![] bcast_S_S512),
    StableHlo.TRef.binary (.of main_v0) main_call0.v1 main_call0.v2 Host.divsi,
    StableHlo.TRef.unary (.of main_v0) main_call0.v3 signi,
    StableHlo.TRef.unary main_call0.v0 main_call0.v4 signi,
    StableHlo.TRef.unary main_call0.v4 main_call0.v5 (broadcastInDim S512 ![] bcast_S_S512),
    StableHlo.TRef.binary main_call0.v3 main_call0.v5 main_call0.v6 (cmpi .ne),
    StableHlo.TRef.unary main_call0.v0 main_call0.v7 (broadcastInDim S512 ![] bcast_S_S512),
    StableHlo.TRef.binary (.of main_v0) main_call0.v7 main_call0.v8 Host.remsi,
    StableHlo.TRef.nullary main_call0.c (constantI S_ 32 0#32),
    StableHlo.TRef.unary main_call0.c main_call0.v9 (broadcastInDim S512 ![] bcast_S_S512),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S512 ![] bcast_S_S512),
    StableHlo.TRef.binary main_call0.v2 main_call0.v12 main_call0.v13 subi,
    StableHlo.TRef.ternary main_call0.v11 main_call0.v13 main_call0.v2 main_call0.call0.v0 select,
    StableHlo.nullary main_c_0 (constantI S_ 32 64#32),
    StableHlo.TRef.unary (.of main_c_0) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S512 ![] bcast_S_S512),
    StableHlo.TRef.binary (.of main_v0) main_call1.v3 main_call1.v4 Host.remsi,
    StableHlo.TRef.nullary main_call1.c_1 (constantI S_ 32 0#32),
    StableHlo.TRef.unary main_call1.c_1 main_call1.v5 (broadcastInDim S512 ![] bcast_S_S512),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S512 ![] bcast_S_S512),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S512 ![] bcast_S_S512),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S512 ![] bcast_S_S512),
    StableHlo.TRef.binary main_call1.v4 main_call1.v13 main_call1.v14 addi,
    StableHlo.TRef.ternary main_call1.v12 main_call1.v14 main_call1.v4 main_call1.v15 select,
    StableHlo.nullary main_c_1 (constantI S_ 32 8#32),
    StableHlo.TRef.unary (.of main_c_1) main_call2.v0 id,
    StableHlo.TRef.unary main_call2.v0 main_call2.v1 (broadcastInDim S512 ![] bcast_S_S512),
    StableHlo.TRef.binary (.of main_v2) main_call2.v1 main_call2.v2 Host.divsi,
    StableHlo.TRef.unary (.of main_v2) main_call2.v3 signi,
    StableHlo.TRef.unary main_call2.v0 main_call2.v4 signi,
    StableHlo.TRef.unary main_call2.v4 main_call2.v5 (broadcastInDim S512 ![] bcast_S_S512),
    StableHlo.TRef.binary main_call2.v3 main_call2.v5 main_call2.v6 (cmpi .ne),
    StableHlo.TRef.unary main_call2.v0 main_call2.v7 (broadcastInDim S512 ![] bcast_S_S512),
    StableHlo.TRef.binary (.of main_v2) main_call2.v7 main_call2.v8 Host.remsi,
    StableHlo.TRef.nullary main_call2.c (constantI S_ 32 0#32),
    StableHlo.TRef.unary main_call2.c main_call2.v9 (broadcastInDim S512 ![] bcast_S_S512),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S512 ![] bcast_S_S512),
    StableHlo.TRef.binary main_call2.v2 main_call2.v12 main_call2.v13 subi,
    StableHlo.TRef.ternary main_call2.v11 main_call2.v13 main_call2.v2 main_call2.call0.v0 select,
    StableHlo.nullary main_c_2 (constantI S_ 32 64#32),
    StableHlo.TRef.unary (.of main_c_2) main_call3.v0 id,
    StableHlo.TRef.nullary main_call3.c (constantI S_ 32 0#32),
    StableHlo.TRef.binary main_call3.v0 main_call3.c main_call3.v1 (cmpi .eq),
    StableHlo.TRef.nullary main_call3.c_0 (constantI S_ 32 1#32),
    StableHlo.TRef.ternary main_call3.v1 main_call3.c_0 main_call3.v0 main_call3.call0.v0 select,
    StableHlo.TRef.unary main_call3.call0.v0 main_call3.v3 (broadcastInDim S512 ![] bcast_S_S512),
    StableHlo.TRef.binary (.of main_v0) main_call3.v3 main_call3.v4 Host.remsi,
    StableHlo.TRef.nullary main_call3.c_1 (constantI S_ 32 0#32),
    StableHlo.TRef.unary main_call3.c_1 main_call3.v5 (broadcastInDim S512 ![] bcast_S_S512),
    StableHlo.TRef.binary main_call3.v4 main_call3.v5 main_call3.v6 (cmpi .ne),
    StableHlo.TRef.nullary main_call3.c_2 (constantI S_ 32 0#32),
    StableHlo.TRef.unary main_call3.c_2 main_call3.v7 (broadcastInDim S512 ![] bcast_S_S512),
    StableHlo.TRef.binary main_call3.v4 main_call3.v7 main_call3.v8 (cmpi .slt),
    StableHlo.TRef.nullary main_call3.c_3 (constantI S_ 32 0#32),
    StableHlo.TRef.binary main_call3.call0.v0 main_call3.c_3 main_call3.v9 (cmpi .slt),
    StableHlo.TRef.unary main_call3.v9 main_call3.v10 (broadcastInDim S512 ![] bcast_S_S512),
    StableHlo.TRef.binary main_call3.v8 main_call3.v10 main_call3.v11 (cmpi .ne),
    StableHlo.TRef.binary main_call3.v11 main_call3.v6 main_call3.v12 andi,
    StableHlo.TRef.unary main_call3.call0.v0 main_call3.v13 (broadcastInDim S512 ![] bcast_S_S512),
    StableHlo.TRef.binary main_call3.v4 main_call3.v13 main_call3.v14 addi,
    StableHlo.TRef.ternary main_call3.v12 main_call3.v14 main_call3.v4 main_call3.v15 select,
    StableHlo.nullary main_c_3 (constantI S_ 32 8#32),
    StableHlo.TRef.unary (.of main_c_3) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S512 ![] bcast_S_S512),
    StableHlo.TRef.binary (.of main_v4) main_call4.v3 main_call4.v4 Host.remsi,
    StableHlo.TRef.nullary main_call4.c_1 (constantI S_ 32 0#32),
    StableHlo.TRef.unary main_call4.c_1 main_call4.v5 (broadcastInDim S512 ![] bcast_S_S512),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S512 ![] bcast_S_S512),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S512 ![] bcast_S_S512),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S512 ![] bcast_S_S512),
    StableHlo.TRef.binary main_call4.v4 main_call4.v13 main_call4.v14 addi,
    StableHlo.TRef.ternary main_call4.v12 main_call4.v14 main_call4.v4 main_call4.v15 select,
    StableHlo.nullary main_c_4 (constantI S_ 32 4#32),
    StableHlo.unary main_c_4 main_v6 (broadcastInDim S512 ![] bcast_S_S512 : (⟨S_, .i32⟩ : BufTy).Contents (Elt F) → (⟨S512, .i32⟩ : BufTy).Contents (Elt F)),
    StableHlo.binary main_v1 main_v6 main_v7 (addi : (⟨S512, .i32⟩ : BufTy).Contents (Elt F) → (⟨S512, .i32⟩ : BufTy).Contents (Elt F) → (⟨S512, .i32⟩ : BufTy).Contents (Elt F)),
    StableHlo.nullary main_c_5 (constantI S_ 32 8#32),
    StableHlo.unary main_c_5 main_v8 (broadcastInDim S512 ![] bcast_S_S512 : (⟨S_, .i32⟩ : BufTy).Contents (Elt F) → (⟨S512, .i32⟩ : BufTy).Contents (Elt F)),
    StableHlo.binary main_v3 main_v8 main_v9 (muli : (⟨S512, .i32⟩ : BufTy).Contents (Elt F) → (⟨S512, .i32⟩ : BufTy).Contents (Elt F) → (⟨S512, .i32⟩ : BufTy).Contents (Elt F)),
    StableHlo.binary main_v9 main_v5 main_v10 (addi : (⟨S512, .i32⟩ : BufTy).Contents (Elt F) → (⟨S512, .i32⟩ : BufTy).Contents (Elt F) → (⟨S512, .i32⟩ : BufTy).Contents (Elt F)),
    StableHlo.nullary main_c_6 (constantI S_ 32 8#32),
    StableHlo.unary main_c_6 main_v11 (broadcastInDim S512 ![] bcast_S_S512 : (⟨S_, .i32⟩ : BufTy).Contents (Elt F) → (⟨S512, .i32⟩ : BufTy).Contents (Elt F)),
    StableHlo.binary main_v7 main_v11 main_v12 (muli : (⟨S512, .i32⟩ : BufTy).Contents (Elt F) → (⟨S512, .i32⟩ : BufTy).Contents (Elt F) → (⟨S512, .i32⟩ : BufTy).Contents (Elt F)),
    StableHlo.nullary main_c_7 (constantI S_ 32 8#32),
    StableHlo.unary main_c_7 main_v13 (broadcastInDim S512 ![] bcast_S_S512 : (⟨S_, .i32⟩ : BufTy).Contents (Elt F) → (⟨S512, .i32⟩ : BufTy).Contents (Elt F)),
    StableHlo.binary main_v12 main_v13 main_v14 (muli : (⟨S512, .i32⟩ : BufTy).Contents (Elt F) → (⟨S512, .i32⟩ : BufTy).Contents (Elt F) → (⟨S512, .i32⟩ : BufTy).Contents (Elt F)),
    StableHlo.binary main_v10 main_v14 main_v15 (addi : (⟨S512, .i32⟩ : BufTy).Contents (Elt F) → (⟨S512, .i32⟩ : BufTy).Contents (Elt F) → (⟨S512, .i32⟩ : BufTy).Contents (Elt F)) ]

/-- The remaining 24. -/
abbrev opsTail : List (HloOp τ sig (Elt F)) :=
  [ StableHlo.nullary main_cst (constant S_ .f32 0x00000000#32),
    StableHlo.unary main_cst main_v16 (broadcastInDim S128x768x768 ![] bcast_S_S128x768x768 : (⟨S_, .f32⟩ : BufTy).Contents (Elt F) → (⟨S128x768x768, .f32⟩ : BufTy).Contents (Elt F)),
    StableHlo.unary main_v15 main_v17 (broadcastInDim S512x1 ![0] bcast_S512_S512x1_0 : (⟨S512, .i32⟩ : BufTy).Contents (Elt F) → (⟨S512x1, .i32⟩ : BufTy).Contents (Elt F)),
    StableHlo.unary main_v15 main_v18 (broadcastInDim S1x512 ![1] bcast_S512_S1x512_1 : (⟨S512, .i32⟩ : BufTy).Contents (Elt F) → (⟨S1x512, .i32⟩ : BufTy).Contents (Elt F)),
    StableHlo.nullary main_c_8 (constantI S_ 32 0#32),
    StableHlo.unary main_c_8 main_v19 (broadcastInDim S512x1 ![] bcast_S_S512x1 : (⟨S_, .i32⟩ : BufTy).Contents (Elt F) → (⟨S512x1, .i32⟩ : BufTy).Contents (Elt F)),
    StableHlo.binary main_v17 main_v19 main_v20 (cmpi .slt : (⟨S512x1, .i32⟩ : BufTy).Contents (Elt F) → (⟨S512x1, .i32⟩ : BufTy).Contents (Elt F) → (⟨S512x1, .i1⟩ : BufTy).Contents (Elt F)),
    StableHlo.nullary main_c_9 (constantI S_ 32 768#32),
    StableHlo.unary main_c_9 main_v21 (broadcastInDim S512x1 ![] bcast_S_S512x1 : (⟨S_, .i32⟩ : BufTy).Contents (Elt F) → (⟨S512x1, .i32⟩ : BufTy).Contents (Elt F)),
    StableHlo.binary main_v17 main_v21 main_v22 (addi : (⟨S512x1, .i32⟩ : BufTy).Contents (Elt F) → (⟨S512x1, .i32⟩ : BufTy).Contents (Elt F) → (⟨S512x1, .i32⟩ : BufTy).Contents (Elt F)),
    StableHlo.ternary main_v20 main_v22 main_v17 main_v23 (select : (⟨S512x1, .i1⟩ : BufTy).Contents (Elt F) → (⟨S512x1, .i32⟩ : BufTy).Contents (Elt F) → (⟨S512x1, .i32⟩ : BufTy).Contents (Elt F) → (⟨S512x1, .i32⟩ : BufTy).Contents (Elt F)),
    StableHlo.nullary main_c_10 (constantI S_ 32 0#32),
    StableHlo.unary main_c_10 main_v24 (broadcastInDim S1x512 ![] bcast_S_S1x512 : (⟨S_, .i32⟩ : BufTy).Contents (Elt F) → (⟨S1x512, .i32⟩ : BufTy).Contents (Elt F)),
    StableHlo.binary main_v18 main_v24 main_v25 (cmpi .slt : (⟨S1x512, .i32⟩ : BufTy).Contents (Elt F) → (⟨S1x512, .i32⟩ : BufTy).Contents (Elt F) → (⟨S1x512, .i1⟩ : BufTy).Contents (Elt F)),
    StableHlo.nullary main_c_11 (constantI S_ 32 768#32),
    StableHlo.unary main_c_11 main_v26 (broadcastInDim S1x512 ![] bcast_S_S1x512 : (⟨S_, .i32⟩ : BufTy).Contents (Elt F) → (⟨S1x512, .i32⟩ : BufTy).Contents (Elt F)),
    StableHlo.binary main_v18 main_v26 main_v27 (addi : (⟨S1x512, .i32⟩ : BufTy).Contents (Elt F) → (⟨S1x512, .i32⟩ : BufTy).Contents (Elt F) → (⟨S1x512, .i32⟩ : BufTy).Contents (Elt F)),
    StableHlo.ternary main_v25 main_v27 main_v18 main_v28 (select : (⟨S1x512, .i1⟩ : BufTy).Contents (Elt F) → (⟨S1x512, .i32⟩ : BufTy).Contents (Elt F) → (⟨S1x512, .i32⟩ : BufTy).Contents (Elt F) → (⟨S1x512, .i32⟩ : BufTy).Contents (Elt F)),
    StableHlo.unary main_v23 main_v29 (broadcastInDim S512x512 ![0, 1] bcast_S512x1_S512x512_0_1 : (⟨S512x1, .i32⟩ : BufTy).Contents (Elt F) → (⟨S512x512, .i32⟩ : BufTy).Contents (Elt F)),
    StableHlo.unary main_v28 main_v30 (broadcastInDim S512x512 ![0, 1] bcast_S1x512_S512x512_0_1 : (⟨S1x512, .i32⟩ : BufTy).Contents (Elt F) → (⟨S512x512, .i32⟩ : BufTy).Contents (Elt F)),
    StableHlo.unary main_v29 main_v31 (broadcastInDim S512x512x1 ![0, 1] bcast_S512x512_S512x512x1_0_1 : (⟨S512x512, .i32⟩ : BufTy).Contents (Elt F) → (⟨S512x512x1, .i32⟩ : BufTy).Contents (Elt F)),
    StableHlo.unary main_v30 main_v32 (broadcastInDim S512x512x1 ![0, 1] bcast_S512x512_S512x512x1_0_1 : (⟨S512x512, .i32⟩ : BufTy).Contents (Elt F) → (⟨S512x512x1, .i32⟩ : BufTy).Contents (Elt F)),
    StableHlo.binary main_v31 main_v32 main_v33 ((fun a b => concatenate S512x512x2 2 [⟨S512x512x1, a⟩, ⟨S512x512x1, b⟩] concatenates_S512x512x1_S512x512x1_S512x512x2_d2) : (⟨S512x512x1, .i32⟩ : BufTy).Contents (Elt F) → (⟨S512x512x1, .i32⟩ : BufTy).Contents (Elt F) → (⟨S512x512x2, .i32⟩ : BufTy).Contents (Elt F)),
    StableHlo.ternary main_v16 main_v33 main_arg0 main_v34 ((fun x i u => Host.scatterAdd scatter_S128x768x768_S512x512x2_S128x512x512_0_12_12_2 x i u) : (⟨S128x768x768, .f32⟩ : BufTy).Contents (Elt F) → (⟨S512x512x2, .i32⟩ : BufTy).Contents (Elt F) → (⟨S128x512x512, .f32⟩ : BufTy).Contents (Elt F) → (⟨S128x768x768, .f32⟩ : BufTy).Contents (Elt F)) ]

theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., ternary_bufs_sub ..⟩

end Cert.ReferenceIdeal.RefRun

end
-- ==== Proof.RefRun.lean ====
/-
  The reference program's run. @main is a straight line of host operations (the integer index computation, a zero
  array, the index tensor, one accumulating scatter), the calls' bodies inlined; every weakly fair execution of it
  terminates with each buffer at the operations' fold over the launch contents. The fold is read in two parts: the
  index computation up to the vector `idx` of landing positions, and the part after it.
-/
import proofs.«125739_j24111946399874_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The list of operations is its two parts, one after the other. -/
theorem ops_split : (ops : List (HloOp τ sig (Elt F))) = opsHead ++ opsTail := rfl

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

-- one hundred and forty-one binds re-associated: the rewrite under the chain recurses once per statement
set_option maxRecDepth 8192 in
/-- @main is that straight line: the called functions unfolded at their calls, both sides are one chain of steps once
    sequencing is re-associated. -/
theorem main_eq (c : Dev nD) : main (F := F) c = seq ops := by
  simp only [main, fn_floor_divide.body, fn_remainder.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates, and every final state has each buffer at the fold of the
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefIdx.lean ====
/-
  The reference's index computation. From `x = 0, …, 511` it forms f = x / 64, i = (x mod 64) / 8, j = (x mod 64) mod 8
  (floor division and the sign-corrected remainder, spelt out in integer operations) and then
  i · 8 + j + (f + 4) · 64, which is x + 256: checked at each of the 512 values of x.
-/
import proofs.«125739_j24111946399874_1_alg».proof.Proof.RefOps
import Idealize.ShloMosaic.Lib.ValueIdx

noncomputable section

namespace Cert.ReferenceIdeal.RefIdx

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx

/-- A vector of 512 words that holds `x + 256` at `x`. -/
def Shifted (v : IVec S512 32) : Prop := ∀ x : Fin 512, v (ix1 x) = BitVec.ofNat 32 (x.val + 256)

instance (v : IVec S512 32) : Decidable (Shifted v) := by unfold Shifted; infer_instance

set_option maxRecDepth 65536 in
set_option maxHeartbeats 4000000 in
/-- After the index computation the position vector holds `x + 256` at `x`, whatever the launch contents: the chain of
    integer operations evaluated at each of the 512 values. -/
theorem head_idx (V : Valuation τ sig (Elt Ideal)) :
    Shifted (after (opsHead (F := Ideal)) V (main_v15 : DevRef τ sig)) := by
  after_results_simp
  decide +kernel

set_option maxRecDepth 65536 in
set_option maxHeartbeats 4000000 in
/-- The index computation writes no argument. -/
theorem head_arg0 (V : Valuation τ sig (Elt Ideal)) :
    after (opsHead (F := Ideal)) V (main_arg0 : DevRef τ sig) = V (main_arg0 : DevRef τ sig) := by
  after_results_simp

end Cert.ReferenceIdeal.RefIdx

end
-- ==== Proof.IdxTensor.lean ====
/-
  The scatter's index tensor as one function of the vector `v` of landing positions: `v` along rows and along columns,
  each wrapped as a possibly negative index (`v + 768` where `v < 0`), broadcast to [512, 512] and joined along a last
  axis of size 2. Where `v x = x + 256` no entry is negative, so entry (r, s, 0) is `r + 256` and entry (r, s, 1) is
  `s + 256`.
-/
import proofs.«125739_j24111946399874_1_alg».proof.Proof.Gen.ReferenceIdeal
import Idealize.ShloMosaic.Lib.ValueIdx
import Idealize.ShloMosaic.Lib.Pipeline.Value

noncomputable section

namespace Cert.ReferenceIdeal.IdxTensor

open Cert.ReferenceIdeal Cert.ReferenceIdeal.Gen Idealize.ShloMosaic Idealize.ShloMosaic.ValueIdx

/-- An index possibly counted from the end, made absolute on an axis of extent 768: `v + 768` where `v < 0`, else `v`. -/
def wrap {S : Shape} (hb : S_.BroadcastsInDim S (![] : Fin 0 → Fin S.rank)) (v : IVec S 32) : IVec S 32 :=
  select (cmpi .slt v (broadcastInDim S ![] hb (constantI S_ 32 0#32)))
    (addi v (broadcastInDim S ![] hb (constantI S_ 32 768#32))) v

/-- The index tensor of shape [512, 512, 2] built from the position vector `v`: component 0 follows the row, component 1
    the column. -/
def idxTensor (v : IVec S512 32) : IVec S512x512x2 32 :=
  concatenate S512x512x2 2
    [⟨S512x512x1, broadcastInDim S512x512x1 ![0, 1] bcast_S512x512_S512x512x1_0_1
        (broadcastInDim S512x512 ![0, 1] bcast_S512x1_S512x512_0_1
          (wrap bcast_S_S512x1 (broadcastInDim S512x1 ![0] bcast_S512_S512x1_0 v)))⟩,
     ⟨S512x512x1, broadcastInDim S512x512x1 ![0, 1] bcast_S512x512_S512x512x1_0_1
        (broadcastInDim S512x512 ![0, 1] bcast_S1x512_S512x512_0_1
          (wrap bcast_S_S1x512 (broadcastInDim S1x512 ![1] bcast_S512_S1x512_1 v)))⟩]
    concatenates_S512x512x1_S512x512x1_S512x512x2_d2

/-- A position `n + 256` with `n < 512` is not negative as a signed 32-bit word. -/
theorem not_neg : ∀ n : Fin 512, IntOp.cmpi .slt (BitVec.ofNat 32 (n.val + 256)) 0#32 = 0#1 := by decide

/-- Where the entry is not negative, wrapping leaves it. -/
theorem wrap_apply {S : Shape} (hb : S_.BroadcastsInDim S (![] : Fin 0 → Fin S.rank)) (v : IVec S 32) (i : S.Idx)
    (h : IntOp.cmpi .slt (v i) 0#32 = 0#1) : wrap hb v i = v i := by
  show Scalar.select (IntOp.cmpi .slt (v i) 0#32) _ (v i) = v i
  rw [h]; exact select_zero _ _

/-- Component 0 at (r, s) is the position of row `r`. -/
theorem idxTensor_apply0 (v : IVec S512 32) (hv : ∀ x : Fin 512, v (ix1 x) = BitVec.ofNat 32 (x.val + 256)) (r s : Fin 512) :
    idxTensor v (ix3 r s (0 : Fin 2)) = BitVec.ofNat 32 (r.val + 256) := by
  unfold idxTensor
  rw [concatenate_pair_apply_left (t := S512x512x2) (s₁ := S512x512x1) (s₂ := S512x512x1) (2 : Fin S512x512x2.rank) _ _ _ (ix3 r s (0 : Fin 2)) rfl (ix3 r s (0 : Fin 1))
      (fun b => by match b with | ⟨0, _⟩ => rfl | ⟨1, _⟩ => rfl | ⟨2, _⟩ => rfl),
    broadcastInDim_apply ![0, 1] bcast_S512x512_S512x512x1_0_1 _ (ix3 r s (0 : Fin 1)) (ix2 r s)
      (fun a => by match a with | ⟨0, _⟩ => rfl | ⟨1, _⟩ => rfl),
    broadcastInDim_apply ![0, 1] bcast_S512x1_S512x512_0_1 _ (ix2 r s) (ix2 r (0 : Fin 1))
      (fun a => by match a with | ⟨0, _⟩ => rfl | ⟨1, _⟩ => rfl)]
  have e : broadcastInDim S512x1 ![0] bcast_S512_S512x1_0 v (ix2 r (0 : Fin 1)) = BitVec.ofNat 32 (r.val + 256) := by
    rw [broadcastInDim_apply ![0] bcast_S512_S512x1_0 v (ix2 r (0 : Fin 1)) (ix1 r)
      (fun a => by match a with | ⟨0, _⟩ => rfl), hv r]
  rw [wrap_apply _ _ _ (by rw [e]; exact not_neg r), e]

/-- Component 1 at (r, s) is the position of column `s`. -/
theorem idxTensor_apply1 (v : IVec S512 32) (hv : ∀ x : Fin 512, v (ix1 x) = BitVec.ofNat 32 (x.val + 256)) (r s : Fin 512) :
    idxTensor v (ix3 r s (1 : Fin 2)) = BitVec.ofNat 32 (s.val + 256) := by
  unfold idxTensor
  rw [concatenate_pair_apply_right (t := S512x512x2) (s₁ := S512x512x1) (s₂ := S512x512x1) (2 : Fin S512x512x2.rank) _ _ _ (ix3 r s (1 : Fin 2)) rfl rfl (ix3 r s (0 : Fin 1))
      (fun b hb => by match b with | ⟨0, _⟩ => rfl | ⟨1, _⟩ => rfl | ⟨2, _⟩ => exact absurd rfl hb) rfl,
    broadcastInDim_apply ![0, 1] bcast_S512x512_S512x512x1_0_1 _ (ix3 r s (0 : Fin 1)) (ix2 r s)
      (fun a => by match a with | ⟨0, _⟩ => rfl | ⟨1, _⟩ => rfl),
    broadcastInDim_apply ![0, 1] bcast_S1x512_S512x512_0_1 _ (ix2 r s) (ix2 (0 : Fin 1) s)
      (fun a => by match a with | ⟨0, _⟩ => rfl | ⟨1, _⟩ => rfl)]
  have e : broadcastInDim S1x512 ![1] bcast_S512_S1x512_1 v (ix2 (0 : Fin 1) s) = BitVec.ofNat 32 (s.val + 256) := by
    rw [broadcastInDim_apply ![1] bcast_S512_S1x512_1 v (ix2 (0 : Fin 1) s) (ix1 s)
      (fun a => by match a with | ⟨0, _⟩ => rfl), hv s]
  rw [wrap_apply _ _ _ (by rw [e]; exact not_neg s), e]

end Cert.ReferenceIdeal.IdxTensor

end
-- ==== Proof.Scatter.lean ====
/-
  What the reference's accumulating scatter computes at the ideal instance when the index tensor names, for update
  entry (b, r, s), the position (r + 256, s + 256) on the two inserted axes: every update lands on its own entry
  (b, r + 256, s + 256) of the operand, so over an operand of zeros the result is the updates inserted at offset
  (0, 256, 256) (`Cert.Insert.insertAt 0`).
-/
import proofs.«125739_j24111946399874_1_alg».proof.Proof.Gen.ReferenceIdeal
import proofs.«125739_j24111946399874_1_alg».proof.Proof.Spec
import Idealize.ShloMosaic.Lib.ValueIdx
import Idealize.ShloMosaic.PureOps.Ideal.Laws

noncomputable section

open scoped BigOperators

namespace Cert.ReferenceIdeal.ScatterValue

open Cert.ReferenceIdeal Cert.ReferenceIdeal.Gen Idealize.ShloMosaic Idealize.ShloMosaic.ValueIdx

/-- The scatter's dimension record, abbreviated. -/
abbrev dims : ScatterDims S128x768x768 S512x512x2 S128x512x512 :=
  scatter_S128x768x768_S512x512x2_S128x512x512_0_12_12_2

/-- The index component read for the first inserted axis sits at (r, s, 0) of the index tensor. -/
theorem siIdx0 (j : S128x512x512.Idx) :
    dims.siIdx j ⟨0, by decide⟩ = ix3 (n0 := 512) (n1 := 512) (n2 := 2) (j 1) (j 2) (0 : Fin 2) := by
  funext b
  match b with
  | ⟨0, _⟩ => rfl
  | ⟨1, _⟩ => rfl
  | ⟨2, _⟩ => rfl

/-- The index component read for the second inserted axis sits at (r, s, 1) of the index tensor. -/
theorem siIdx1 (j : S128x512x512.Idx) :
    dims.siIdx j ⟨1, by decide⟩ = ix3 (n0 := 512) (n1 := 512) (n2 := 2) (j 1) (j 2) (1 : Fin 2) := by
  funext b
  match b with
  | ⟨0, _⟩ => rfl
  | ⟨1, _⟩ => rfl
  | ⟨2, _⟩ => rfl

/-- The batch axis is not named by the index map: its window starts at 0. -/
theorem start0 (idx : IVec S512x512x2 32) (j : S128x512x512.Idx) : dims.start j idx (0 : Fin 3) = 0 := rfl

/-- On the first inserted axis the window starts at the signed reading of the index tensor at (r, s, 0). -/
theorem start1 (idx : IVec S512x512x2 32) (j : S128x512x512.Idx) :
    dims.start j idx (1 : Fin 3) = (idx (ix3 (n0 := 512) (n1 := 512) (n2 := 2) (j 1) (j 2) (0 : Fin 2))).toInt := by
  rw [← siIdx0 j]; rfl

/-- On the second inserted axis the window starts at the signed reading of the index tensor at (r, s, 1). -/
theorem start2 (idx : IVec S512x512x2 32) (j : S128x512x512.Idx) :
    dims.start j idx (2 : Fin 3) = (idx (ix3 (n0 := 512) (n1 := 512) (n2 := 2) (j 1) (j 2) (1 : Fin 2))).toInt := by
  rw [← siIdx1 j]; rfl

/-- The batch axis is the one window axis: its window coordinate is the update's batch coordinate. -/
theorem window0 (j : S128x512x512.Idx) : dims.window j (0 : Fin 3) = (j 0).val := rfl
/-- An inserted axis has window coordinate 0. -/
theorem window1 (j : S128x512x512.Idx) : dims.window j (1 : Fin 3) = 0 := rfl
/-- An inserted axis has window coordinate 0. -/
theorem window2 (j : S128x512x512.Idx) : dims.window j (2 : Fin 3) = 0 := rfl

/-- A 32-bit word made from a natural number below 2^31 reads back, signed, as that number. -/
theorem toInt_ofNat_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- Where update entry `j` = (b, r, s) lands when the index tensor holds (r + 256, s + 256) at (r, s): at
    `Cert.Insert.landing j` = (b, r + 256, s + 256), inside the operand. -/
theorem resultIdx_eq (idx : IVec S512x512x2 32)
    (h0 : ∀ (r s : Fin 512), idx (ix3 r s (0 : Fin 2)) = BitVec.ofNat 32 (r.val + 256))
    (h1 : ∀ (r s : Fin 512), idx (ix3 r s (1 : Fin 2)) = BitVec.ofNat 32 (s.val + 256))
    (j : S128x512x512.Idx) :
    dims.resultIdx? j idx = some (Cert.Insert.landing j) := by
  have hb : (j 0).val < 128 := Cert.Insert.in_lt0 j
  have hr : (j 1).val < 512 := Cert.Insert.in_lt1 j
  have hs : (j 2).val < 512 := Cert.Insert.in_lt2 j
  -- start plus window coordinate, axis by axis: b, r + 256, s + 256
  have e0 : dims.start j idx (0 : Fin 3) + (dims.window j (0 : Fin 3) : Int) = ((j 0).val : Int) := by
    rw [start0, window0, Int.zero_add]
  have e1 : dims.start j idx (1 : Fin 3) + (dims.window j (1 : Fin 3) : Int) = (((j 1).val + 256 : Nat) : Int) := by
    rw [start1, window1, h0 (j 1) (j 2), toInt_ofNat_small _ (by omega)]; rfl
  have e2 : dims.start j idx (2 : Fin 3) + (dims.window j (2 : Fin 3) : Int) = (((j 2).val + 256 : Nat) : Int) := by
    rw [start2, window2, h1 (j 1) (j 2), toInt_ofNat_small _ (by omega)]; rfl
  -- each is inside the operand's extent 128 / 768 / 768
  have hall : ∀ a, 0 ≤ dims.start j idx a + dims.window j a ∧
      dims.start j idx a + dims.window j a < S128x768x768.size a := by
    intro a
    match a with
    | ⟨0, _⟩ =>
      show 0 ≤ dims.start j idx (0 : Fin 3) + (dims.window j (0 : Fin 3) : Int) ∧
        dims.start j idx (0 : Fin 3) + (dims.window j (0 : Fin 3) : Int) < ((128 : Nat) : Int)
      rw [e0]; omega
    | ⟨1, _⟩ =>
      show 0 ≤ dims.start j idx (1 : Fin 3) + (dims.window j (1 : Fin 3) : Int) ∧
        dims.start j idx (1 : Fin 3) + (dims.window j (1 : Fin 3) : Int) < ((768 : Nat) : Int)
      rw [e1]; omega
    | ⟨2, _⟩ =>
      show 0 ≤ dims.start j idx (2 : Fin 3) + (dims.window j (2 : Fin 3) : Int) ∧
        dims.start j idx (2 : Fin 3) + (dims.window j (2 : Fin 3) : Int) < ((768 : Nat) : Int)
      rw [e2]; omega
  unfold ScatterDims.resultIdx?
  rw [dif_pos hall]
  refine congrArg some (Cert.Insert.out_ext ?_ ?_ ?_)
  · show (dims.start j idx (0 : Fin 3) + (dims.window j (0 : Fin 3) : Int)).toNat = _
    rw [e0, Cert.Insert.landing_val0]; exact Int.toNat_natCast _
  · show (dims.start j idx (1 : Fin 3) + (dims.window j (1 : Fin 3) : Int)).toNat = _
    rw [e1, Cert.Insert.landing_val1]; exact Int.toNat_natCast _
  · show (dims.start j idx (2 : Fin 3) + (dims.window j (2 : Fin 3) : Int)).toNat = _
    rw [e2, Cert.Insert.landing_val2]; exact Int.toNat_natCast _

/-- The accumulating scatter of `x` into an operand `z` of zeros under such an index tensor is `x` inserted at
    offset (0, 256, 256) of zeros. -/
theorem scatterAdd_insert (idx : IVec S512x512x2 32)
    (h0 : ∀ (r s : Fin 512), idx (ix3 r s (0 : Fin 2)) = BitVec.ofNat 32 (r.val + 256))
    (h1 : ∀ (r s : Fin 512), idx (ix3 r s (1 : Fin 2)) = BitVec.ofNat 32 (s.val + 256))
    (z : FVec Ideal S128x768x768 .f32) (hz : ∀ i, z i = 0) (x : FVec Ideal S128x512x512 .f32) :
    Host.scatterAdd (F := Ideal) dims z idx x = Cert.Insert.insertAt (0 : EReal) x := by
  funext i
  show z i + ∑ j ∈ Finset.univ.filter (fun j => dims.resultIdx? j idx = some i), x j = _
  rw [hz i, zero_add]
  refine Cert.Insert.sum_landing (M := EReal) x i _ fun j => ?_
  rw [resultIdx_eq idx h0 h1 j]
  exact Option.some_inj

end Cert.ReferenceIdeal.ScatterValue

end
-- ==== Proof.RefValue.lean ====
/-
  The reference's value. After the index computation the position vector holds x + 256 at x; the remaining
  operations build the zero array and the index tensor from it and scatter-add the argument into the zeros. Every update
  (b, r, s) lands on its own entry (b, r + 256, s + 256), so the result is the argument inserted at offset (0, 256, 256)
  of zeros, and the argument is unchanged.
-/
import proofs.«125739_j24111946399874_1_alg».proof.Proof.RefRun
import proofs.«125739_j24111946399874_1_alg».proof.Proof.RefIdx
import proofs.«125739_j24111946399874_1_alg».proof.Proof.IdxTensor
import proofs.«125739_j24111946399874_1_alg».proof.Proof.Scatter
import proofs.«125739_j24111946399874_1_alg».proof.Proof.Spec
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx

-- the scatter, the concatenation and the broadcasts stay folded: the equation never looks inside them, only at which
-- operation wrote which buffer
attribute [local irreducible] Host.scatterAdd concatenate broadcastInDim in
set_option maxHeartbeats 2000000 in
set_option maxRecDepth 65536 in
/-- The operations after the index computation, over any contents `W`: the accumulating scatter of the argument into
    a zero array at the index tensor built from the position vector (the fold unrolled; each buffer read is the value
    the operation that wrote it computed). -/
theorem tail_out (W : Valuation τ sig (Elt Ideal)) :
    after (opsTail (F := Ideal)) W (main_v34 : DevRef τ sig)
      = Host.scatterAdd (F := Ideal) ScatterValue.dims
          (broadcastInDim S128x768x768 ![] bcast_S_S128x768x768 (constant (F := Ideal) S_ .f32 0x00000000#32))
          (IdxTensor.idxTensor (W (main_v15 : DevRef τ sig)))
          (W (main_arg0 : DevRef τ sig)) := by
  simp only [after_cons, after_nil]
  rfl

/-- They write no argument. -/
theorem tail_arg0 (W : Valuation τ sig (Elt Ideal)) :
    after (opsTail (F := Ideal)) W (main_arg0 : DevRef τ sig) = W (main_arg0 : DevRef τ sig) := by
  simp only [after_cons, after_nil]
  rfl

/-- The result buffer after all of @main: the argument inserted at offset (0, 256, 256) of zeros. -/
theorem out_eq (V : Valuation τ sig (Elt Ideal)) :
    after (ops (F := Ideal)) V (main_v34 : DevRef τ sig)
      = Cert.Insert.insertAt (0 : EReal) (V (main_arg0 : DevRef τ sig)) := by
  rw [ops_split, after_append, tail_out, RefIdx.head_arg0]
  exact ScatterValue.scatterAdd_insert _
    (IdxTensor.idxTensor_apply0 _ (RefIdx.head_idx V)) (IdxTensor.idxTensor_apply1 _ (RefIdx.head_idx V))
    _ (fun _ => Ideal.ofBits_zero_f32) _

/-- The argument after all of @main: as launched. -/
theorem arg0_eq (V : Valuation τ sig (Elt Ideal)) :
    after (ops (F := Ideal)) V (main_arg0 : DevRef τ sig) = V (main_arg0 : DevRef τ sig) := by
  rw [ops_split, after_append, tail_arg0, RefIdx.head_arg0]

/-- Every weakly fair execution of the reference terminates with the result at the argument inserted at offset
    (0, 256, 256) of zeros, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
        = Cert.Insert.insertAt (0 : EReal) (m ((c.tc : Thread nD τ).loc main_arg0))
      ∧ r.2.mem ((c.tc : Thread nD τ).loc main_arg0) = m ((c.tc : Thread nD τ).loc main_arg0) :=
  (θ_run defs _ _).mono (fun _ h c => ⟨(h c main_v34).trans (out_eq _), (h c main_arg0).trans (arg0_eq _)⟩)
    (run_main m ρ)

end Cert.ReferenceIdeal.RefValue

end
-- ==== Proof.lean ====
/-
  The certificate. The kernel copies each block of four [512, 512] matrices of `rho` to offset (256, 256) of a zeroed
  block of four [768, 768] matrices; the reference scatter-adds `rho (b, r, s)` into a zero [128, 768, 768] array at
  (b, idx r, idx s) with idx x = (x mod 64 / 8) · 8 + x mod 64 mod 8 + (x / 64 + 4) · 64 = x + 256. The positions are
  pairwise distinct, so each touched entry receives exactly one update, 0 + rho (b, r, s) = rho (b, r, s) on the extended
  reals, and the untouched entries stay 0: both programs end with `rho` inserted at offset (0, 256, 256) of zeros
  (`Cert.Insert.insertAt 0`). No law used needs the inputs finite. The three frames: the two kernels' from their
  launch proofs, the reference's from its run; the idealization rewrote nothing, so `preserves` has no conjunct.
-/
import proofs.«125739_j24111946399874_1_alg».proof.Defs
import proofs.«125739_j24111946399874_1_alg».proof.Proof.Gen.Kernel
import proofs.«125739_j24111946399874_1_alg».proof.Proof.Gen.Kernel.Skeleton
import proofs.«125739_j24111946399874_1_alg».proof.Proof.Gen.Kernel.Launch
import proofs.«125739_j24111946399874_1_alg».proof.Proof.Gen.Kernel.Points
import proofs.«125739_j24111946399874_1_alg».proof.Proof.Gen.Kernel.Frame
import proofs.«125739_j24111946399874_1_alg».proof.Proof.Gen.KernelIdeal
import proofs.«125739_j24111946399874_1_alg».proof.Proof.Gen.KernelIdeal.Skeleton
import proofs.«125739_j24111946399874_1_alg».proof.Proof.Gen.KernelIdeal.Launch
import proofs.«125739_j24111946399874_1_alg».proof.Proof.Gen.KernelIdeal.Points
import proofs.«125739_j24111946399874_1_alg».proof.Proof.Gen.KernelIdeal.Frame
import proofs.«125739_j24111946399874_1_alg».proof.Proof.Gen.ReferenceIdeal
import proofs.«125739_j24111946399874_1_alg».proof.Proof.Gen.Pre_finite_inputs
import proofs.«125739_j24111946399874_1_alg».proof.Proof.KernelValue
import proofs.«125739_j24111946399874_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on `rho`, both idealized programs end with `rho` inserted at offset (0, 256, 256) of zeros. -/
theorem algebraic : Cert.algebraic_KernelIdeal_ReferenceIdeal := by
  intro m ρ m' ρ' _ hagree
  refine ⟨fun c => Cert.Insert.insertAt (0 : EReal) (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
